-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256x256 .f32) (main_arg6 : FVec F S256x256 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x256 .f32) (main_arg3 : FVec F S128x256 .f32) (main_arg4 : FVec F S256 .f32) (main_arg5 : FVec F S256x256 .f32) (main_arg6 : FVec F S256x256 .f32) (main_arg7 : FVec F S256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩

abbrev nBuf : Space → Nat
  | .hbm => 67
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S1x256, .f32⟩
  | .hbm, ⟨48, _⟩ => ⟨S50000x256, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x256, .f32⟩
  | .hbm, ⟨58, _⟩ => ⟨S_, .f32⟩
  | .hbm, ⟨59, _⟩ => ⟨S50000x256, .f32⟩
  | .hbm, ⟨60, _⟩ => ⟨S800000x1, .i32⟩
  | .hbm, ⟨61, _⟩ => ⟨S50000x256, .f32⟩
  | .hbm, ⟨62, _⟩ => ⟨S50000x1, .f32⟩
  | .hbm, ⟨63, _⟩ => ⟨S50000x256, .f32⟩
  | .hbm, ⟨64, _⟩ => ⟨S50000x256, .f32⟩
  | .hbm, ⟨65, _⟩ => ⟨S1x256, .f32⟩
  | .hbm, ⟨66, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v27) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .i1⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S50000x256, .f32⟩
  | .hbm, ⟨48, _⟩ => ⟨S50000x256, .f32⟩
  | .hbm, ⟨49, _⟩ => ⟨S50000x256, .f32⟩
  | .hbm, ⟨50, _⟩ => ⟨S1x256, .f32⟩
  | .hbm, ⟨51, _⟩ => ⟨S50000x256, .f32⟩
  | .hbm, ⟨52, _⟩ => ⟨S50000x256, .f32⟩
  | .hbm, ⟨53, _⟩ => ⟨S_, .f32⟩
  | .hbm, ⟨54, _⟩ => ⟨S50000x256, .f32⟩
  | .hbm, ⟨55, _⟩ => ⟨S50000x256, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x256, .f32⟩
  | .hbm, ⟨65, _⟩ => ⟨S_, .f32⟩
  | .hbm, ⟨66, _⟩ => ⟨S50000x256, .f32⟩
  | .hbm, ⟨67, _⟩ => ⟨S800000x1, .i32⟩
  | .hbm, ⟨68, _⟩ => ⟨S50000x256, .f32⟩
  | .hbm, ⟨69, _⟩ => ⟨S50000x1, .f32⟩
  | .hbm, ⟨70, _⟩ => ⟨S50000x256, .f32⟩
  | .hbm, ⟨71, _⟩ => ⟨S50000x256, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S1x256, .f32⟩
  | .hbm, ⟨76, _⟩ => ⟨S50000x256, .f32⟩
  | .hbm, ⟨77, _⟩ => ⟨S50000x256, .f32⟩
  | .hbm, ⟨78, _⟩ => ⟨S_, .f32⟩
  | .hbm, ⟨79, _⟩ => ⟨S50000x256, .f32⟩
  | .hbm, ⟨80, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_cst : Ref sig .tc := ⟨.hbm, 53, rfl⟩
abbrev main_call1_v0 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call2_cst : Ref sig .tc := ⟨.hbm, 78, rfl⟩
abbrev main_call2_v0 : Ref sig .tc := ⟨.hbm, 79, rfl⟩
abbrev main_v54 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Chain.lean ====
/-
  The graph aggregation both layers share, as named functions of the edge list and a feature array.

  From the edge list `e` (two rows of 800000 node indices: sources and destinations) the host computes the in-degree of
  every node (a scatter-add of ones at the destinations), its guarded inverse (1 / max(deg, 1) where deg > 0, else 0), and
  for a feature array `h` the neighbour mean: gather the source rows (a negative index wrapped by the row count first),
  scatter-add them at the destinations, scale row r by the inverse degree of r. These functions are never opened: the
  kernel's program and the reference apply the very same operations, so the two meet at these names.
-/
import proofs.«180410_j2018634629676_1_alg».proof.Proof.Gen.KernelIdeal

noncomputable section

namespace Cert.KernelIdeal.Chain

open Cert.KernelIdeal Cert.KernelIdeal.Gen
open Idealize.ShloMosaic Idealize.ShloMosaic.TcCoe

variable {F : FTy → Type} [FloatOps F]

/-- The edges' source nodes: row 0 of the edge list. -/
def src (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- The edges' destination nodes: row 1 of the edge list. -/
def dst (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- The source indices with a negative one wrapped by the number of nodes, as a column of start indices. -/
def srcCol (e : (⟨S2x800000, .i32⟩ : BufTy).Contents (Elt F)) : (⟨S800000x1, .i32⟩ : BufTy).Contents (Elt F) :=
  broadcastInDim S800000x1 ![0] bcast_S800000_S800000x1_0
    (select (cmpi .slt (src (F := F) e) (broadcastInDim S800000 ![] bcast_S_S800000 (constantI S_ 32 0#32)))
      (addi (src (F := F) e) (broadcastInDim S800000 ![] bcast_S_S800000 (constantI S_ 32 50000#32))) (src (F := F) e))

/-- The destination indices as a column of scatter indices. -/
def dstCol (e : (⟨S2x800000, .i32⟩ : BufTy).Contents (Elt F)) : (⟨S800000x1, .i32⟩ : BufTy).Contents (Elt F) :=
  broadcastInDim S800000x1 ![0] bcast_S800000_S800000x1_0 (dst (F := F) e)

/-- The in-degree of every node: ones added up at the destinations. -/
def deg (e : (⟨S2x800000, .i32⟩ : BufTy).Contents (Elt F)) : (⟨S50000, .f32⟩ : BufTy).Contents (Elt F) :=
  Host.scatterAdd scatter_S50000_S800000x1_S800000_n_0_0_1 (broadcastInDim S50000 ![] bcast_S_S50000 (constant S_ .f32 0x00000000#32))
    (dstCol (F := F) e) (broadcastInDim S800000 ![] bcast_S_S800000 (constant S_ .f32 0x3F800000#32))

/-- The guarded inverse degree: 1 / max(deg, 1) where deg > 0, else 0. -/
def degInv (e : (⟨S2x800000, .i32⟩ : BufTy).Contents (Elt F)) : (⟨S50000, .f32⟩ : BufTy).Contents (Elt F) :=
  select (cmpf (F := F) .ogt (deg (F := F) e) (broadcastInDim S50000 ![] bcast_S_S50000 (constant S_ .f32 0x00000000#32)))
    (Host.divf (broadcastInDim S50000 ![] bcast_S_S50000 (constant S_ .f32 0x3F800000#32))
      (maximumf (deg (F := F) e) (broadcastInDim S50000 ![] bcast_S_S50000 (constant S_ .f32 0x3F800000#32))))
    (broadcastInDim S50000 ![] bcast_S_S50000 (id (constant S_ .f32 0x00000000#32)))

/-- The neighbour mean of a 128-column feature array. -/
def mean128 (h : (⟨S50000x128, .f32⟩ : BufTy).Contents (Elt F)) (e : (⟨S2x800000, .i32⟩ : BufTy).Contents (Elt F)) :
    (⟨S50000x128, .f32⟩ : BufTy).Contents (Elt F) :=
  mulf (Host.scatterAdd scatter_S50000x128_S800000x1_S800000x128_1_0_0_1
      (broadcastInDim S50000x128 ![] bcast_S_S50000x128 (constant S_ .f32 0x00000000#32)) (dstCol (F := F) e)
      (Host.gather gather_S50000x128_S800000x1_S800000x128_1_0_n_n_0_1_1128 h (srcCol (F := F) e)))
    (broadcastInDim S50000x128 ![0, 1] bcast_S50000x1_S50000x128_0_1 (broadcastInDim S50000x1 ![0] bcast_S50000_S50000x1_0 (degInv (F := F) e)))

/-- The neighbour mean of a 256-column feature array. -/
def mean256 (h : (⟨S50000x256, .f32⟩ : BufTy).Contents (Elt F)) (e : (⟨S2x800000, .i32⟩ : BufTy).Contents (Elt F)) :
    (⟨S50000x256, .f32⟩ : BufTy).Contents (Elt F) :=
  mulf (Host.scatterAdd scatter_S50000x256_S800000x1_S800000x256_1_0_0_1
      (broadcastInDim S50000x256 ![] bcast_S_S50000x256 (constant S_ .f32 0x00000000#32)) (dstCol (F := F) e)
      (Host.gather gather_S50000x256_S800000x1_S800000x256_1_0_n_n_0_1_1256 h (srcCol (F := F) e)))
    (broadcastInDim S50000x256 ![0, 1] bcast_S50000x1_S50000x256_0_1 (broadcastInDim S50000x1 ![0] bcast_S50000_S50000x1_0 (degInv (F := F) e)))

end Cert.KernelIdeal.Chain

end
-- ==== Proof.HostReads.lean ====
/-
  What the two regions find at their windows' arrays: the host operations around them, read as functions of the arguments.

  Region 0 finds the neighbour mean of the features, the features, the first layer's weights and its bias laid as one row;
  region 1 finds the neighbour mean of region 0's result, that result, the second layer's weights and its bias laid as one
  row. The edge list's two rows and the inverse degrees are computed once, before region 0, and no region writes them: the
  stretch before region 1 reads them as they were.
-/
import proofs.«180410_j2018634629676_1_alg».proof.Proof.Gen.KernelIdeal.Frame
import proofs.«180410_j2018634629676_1_alg».proof.Proof.Chain

set_option maxRecDepth 16384

noncomputable section

namespace Cert.KernelIdeal.Chain

open Cert.KernelIdeal Cert.KernelIdeal.Gen
open Idealize.ShloMosaic Idealize.ShloMosaic.TcCoe Idealize.ShloMosaic.StableHlo

variable {F : FTy → Type} [FloatOps F]

variable (m : (ℓ : Loc nD τ sig) → Buf (Elt F) ℓ) (ρ : Dev nD → PrngReg)

/-! ## Region 0's entry contents -/

/-- The mean window: the neighbour mean of the features. -/
theorem V3_main_v27 (c : Dev nD) :
    V3 m ρ c main_v27 = mean128 (F := F) (m ((c : Thread nD τ).loc main_arg0)) (m ((c : Thread nD τ).loc main_arg1)) := by
  show StableHlo.after hostOps0_2 (StableHlo.after hostOps0_1 (StableHlo.after hostOps0 (W0 m ρ c))) (Proc.devRef .tc main_v27) = _
  after_results_simp
  rfl

/-- The bias window: the first bias laid as one row. -/
theorem V3_main_v28 (c : Dev nD) :
    V3 m ρ c main_v28 = shapeCast S1x256 (m ((c : Thread nD τ).loc main_arg4)) shapeCasts_S256_S1x256 := by
  show StableHlo.after hostOps0_2 (StableHlo.after hostOps0_1 (StableHlo.after hostOps0 (W0 m ρ c))) (Proc.devRef .tc main_v28) = _
  after_results_simp
  rfl

/-- The features and the first layer's weights are as launched. -/
theorem V3_main_arg0 (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  after_results_simp <;> rfl
theorem V3_main_arg2 (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  after_results_simp <;> rfl
theorem V3_main_arg3 (c : Dev nD) : V3 m ρ c main_arg3 = m ((c : Thread nD τ).loc main_arg3) := by
  show StableHlo.after hostOps0_2 (StableHlo.after hostOps0_1 (StableHlo.after hostOps0 (W0 m ρ c))) (Proc.devRef .tc main_arg3) = _
  after_results_simp <;> rfl

/-! ## What region 1's host stretch reads of the buffers written before region 0 -/

theorem W3_main_v1 (c : Dev nD) : W3 m ρ c (Proc.devRef .tc main_v1) = src (F := F) (m ((c : Thread nD τ).loc main_arg1)) := by
  show StableHlo.after hostOps0_2 (StableHlo.after hostOps0_1 (StableHlo.after hostOps0 (W0 m ρ c))) (Proc.devRef .tc main_v1) = _
  after_results_simp
  rfl
theorem W3_main_v3 (c : Dev nD) : W3 m ρ c (Proc.devRef .tc main_v3) = dst (F := F) (m ((c : Thread nD τ).loc main_arg1)) := by
  show StableHlo.after hostOps0_2 (StableHlo.after hostOps0_1 (StableHlo.after hostOps0 (W0 m ρ c))) (Proc.devRef .tc main_v3) = _
  after_results_simp
  rfl
theorem W3_main_v14 (c : Dev nD) : W3 m ρ c (Proc.devRef .tc main_v14) = degInv (F := F) (m ((c : Thread nD τ).loc main_arg1)) := by
  show StableHlo.after hostOps0_2 (StableHlo.after hostOps0_1 (StableHlo.after hostOps0 (W0 m ρ c))) (Proc.devRef .tc main_v14) = _
  after_results_simp
  rfl
theorem W3_main_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl
theorem W3_main_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl
theorem W3_main_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl

/-! ## Region 1's entry contents, over what region 0 left in its result array -/

/-- The mean window: the neighbour mean of region 0's result. -/
theorem V5_main_v42 (c : Dev nD) :
    V5 m ρ c main_v42 = mean256 (F := F) (W4 m ρ c (Proc.devRef .tc main_v29)) (m ((c : Thread nD τ).loc main_arg1)) := by
  show StableHlo.after hostOps1 (W4 m ρ c) (Proc.devRef .tc main_v42) = _
  after_results_simp
  rw [W4_of_ne m ρ c main_v1 (by decide), W4_of_ne m ρ c main_v3 (by decide), W4_of_ne m ρ c main_v14 (by decide),
    W3_main_v1, W3_main_v3, W3_main_v14]
  rfl

/-- The feature window: region 0's result itself. -/
theorem V5_main_v29 (c : Dev nD) : V5 m ρ c main_v29 = W4 m ρ c (Proc.devRef .tc main_v29) := by
  show StableHlo.after hostOps1 (W4 m ρ c) (Proc.devRef .tc main_v29) = _
  after_results_simp <;> rfl

/-- The bias window: the second bias laid as one row. -/
theorem V5_main_v43 (c : Dev nD) :
    V5 m ρ c main_v43 = shapeCast S1x256 (m ((c : Thread nD τ).loc main_arg7)) shapeCasts_S256_S1x256 := by
  show StableHlo.after hostOps1 (W4 m ρ c) (Proc.devRef .tc main_v43) = _
  after_results_simp
  rw [W4_of_ne m ρ c main_arg7 (by decide), W3_main_arg7]
  rfl

/-- The second layer's weights are as launched. -/
theorem V5_main_arg5 (c : Dev nD) : V5 m ρ c main_arg5 = m ((c : Thread nD τ).loc main_arg5) := by
  show StableHlo.after hostOps1 (W4 m ρ c) (Proc.devRef .tc main_arg5) = _
  after_results_simp
  rw [W4_of_ne m ρ c main_arg5 (by decide), W3_main_arg5]
theorem V5_main_arg6 (c : Dev nD) : V5 m ρ c main_arg6 = m ((c : Thread nD τ).loc main_arg6) := by
  show StableHlo.after hostOps1 (W4 m ρ c) (Proc.devRef .tc main_arg6) = _
  after_results_simp
  rw [W4_of_ne m ρ c main_arg6 (by decide), W3_main_arg6]

end Cert.KernelIdeal.Chain

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.Layer.lean ====
/-
  One SAGE layer read at an entry, at the ideal values.

  A layer takes the neighbour means `mean` and the node features `x` (both m×k), two weight matrices `Wl`, `Wr` (k×n) and a
  bias vector `b` (n entries); its entry (r, h) is

      max( (Σ_l mean(r, l)·Wl(l, h) + Σ_l x(r, l)·Wr(l, h)) + b(h), 0 ).

  Both programs compute exactly this, in this grouping. The reference spells it with two whole-matrix products, the bias
  laid along the columns and repeated down the rows, and a maximum against a broadcast zero. The kernel spells it, per block
  of rows, with two products into zero accumulators (the operands' change of float format is the identity at the ideal
  values), the bias held as one row and repeated down the block's rows, and a maximum against a splat zero. No algebraic law
  is needed to join the two: each product reads the same sum over the contracted coordinate.
-/
import proofs.«180410_j2018634629676_1_alg».proof.Proof.LibDenseLayer

noncomputable section

namespace Cert.Sage

open Idealize.ShloMosaic Idealize.ShloMosaic.ValueIdx Idealize.ShloMosaic.DenseLayer

variable {m k n : ℕ}

/-- Entry (r, h) of one layer: the two contractions along the feature axis, the bias entry, and the rectifier. -/
def layerAt (mean x : (⟨2, ![m, k]⟩ : Shape).Idx → EReal) (Wl Wr : (⟨2, ![k, n]⟩ : Shape).Idx → EReal)
    (b : (⟨1, ![n]⟩ : Shape).Idx → EReal) (r : Fin m) (h : Fin n) : EReal :=
  max (((∑ l : Fin k, mean (ix2 r l) * Wl (ix2 l h)) + ∑ l : Fin k, x (ix2 r l) * Wr (ix2 l h)) + b (ix1 h)) 0

/-- One layer as a whole m×n array. -/
def layer (mean x : (⟨2, ![m, k]⟩ : Shape).Idx → EReal) (Wl Wr : (⟨2, ![k, n]⟩ : Shape).Idx → EReal)
    (b : (⟨1, ![n]⟩ : Shape).Idx → EReal) : (⟨2, ![m, n]⟩ : Shape).Idx → EReal :=
  fun i => layerAt mean x Wl Wr b (i 0) (i 1)

theorem layer_ix2 (mean x : (⟨2, ![m, k]⟩ : Shape).Idx → EReal) (Wl Wr : (⟨2, ![k, n]⟩ : Shape).Idx → EReal)
    (b : (⟨1, ![n]⟩ : Shape).Idx → EReal) (r : Fin m) (h : Fin n) :
    layer mean x Wl Wr b (ix2 r h) = layerAt mean x Wl Wr b r h := rfl

/-- The bias held as one row `[1, n]`, read back as the vector it came from. -/
def rowVec (row : (⟨2, ![1, n]⟩ : Shape).Idx → EReal) : (⟨1, ![n]⟩ : Shape).Idx → EReal :=
  fun j => row (ix2 (0 : Fin 1) (j 0))

/-- A bias vector cast to one row and read back as a vector is the vector. -/
theorem rowVec_cast (b : (⟨1, ![n]⟩ : Shape).Idx → EReal) (h : (⟨1, ![n]⟩ : Shape).ShapeCasts ⟨2, ![1, n]⟩) :
    rowVec (shapeCast ⟨2, ![1, n]⟩ b h) = b := by
  funext j
  obtain ⟨q, rfl⟩ : ∃ q : Fin n, j = ix1 q := ⟨j 0, eq_ix1 j⟩
  exact shapeCast_a_1a_apply b h 0 q

/-- The reference's spelling of a layer — two whole products, the bias laid along axis 1 of one row and that row repeated,
    a maximum against a broadcast zero — is the layer. -/
theorem host_layer (w : DotDims.WF ⟨2, ![m, k]⟩ ⟨2, ![k, n]⟩ ⟨2, ![m, n]⟩ [1] [0] [0] [1] [] [])
    (prec : Option ContractPrecision)
    (h0 : (⟨0, ![]⟩ : Shape).BroadcastsInDim ⟨2, ![m, n]⟩ ![])
    (h1 : (⟨1, ![n]⟩ : Shape).BroadcastsInDim ⟨2, ![1, n]⟩ ![1])
    (h2 : (⟨2, ![1, n]⟩ : Shape).BroadcastsInDim ⟨2, ![m, n]⟩ ![0, 1])
    (mean x : FVec Ideal ⟨2, ![m, k]⟩ .f32) (Wl Wr : FVec Ideal ⟨2, ![k, n]⟩ .f32) (b : FVec Ideal ⟨1, ![n]⟩ .f32) :
    maximumf (addf (addf (Host.dotGeneral (⟨[1], [0], [0], [1], [], [], w⟩ : DotDims _ _ _) prec mean Wl)
          (Host.dotGeneral (⟨[1], [0], [0], [1], [], [], w⟩ : DotDims _ _ _) prec x Wr))
        (broadcastInDim ⟨2, ![m, n]⟩ ![0, 1] h2 (broadcastInDim ⟨2, ![1, n]⟩ ![1] h1 b)))
      (broadcastInDim ⟨2, ![m, n]⟩ ![] h0 (constant (F := Ideal) ⟨0, ![]⟩ .f32 0x00000000#32))
    = layer mean x Wl Wr b := by
  funext i
  obtain ⟨r, h, rfl⟩ : ∃ (r : Fin m) (h : Fin n), i = ix2 r h := ⟨i 0, i 1, eq_ix2 i⟩
  rw [layer_ix2, maximumf_apply, addf_apply, addf_apply, bias_inDim_apply, broadcastInDim_scalar_apply, constant_apply,
    Ideal.ofBits_zero_f32]
  unfold Host.dotGeneral
  rw [dotGeneral_rows_apply, dotGeneral_rows_apply]
  rfl

/-- The kernel's spelling of a layer on one block of rows — two products into zero accumulators, the bias row repeated down
    the rows, a maximum against a splat zero — read at `(p, q)`, is the layer's entry over the block's operands. -/
theorem kernel_layer_apply {φ₁ φ₂ : FTy}
    (w : DotDims.WF ⟨2, ![m, k]⟩ ⟨2, ![k, n]⟩ ⟨2, ![m, n]⟩ [1] [0] [0] [1] [] [])
    (prec : Option ContractPrecision) (hb : (⟨2, ![1, n]⟩ : Shape).Broadcasts ⟨2, ![m, n]⟩)
    (A X : FVec Ideal ⟨2, ![m, k]⟩ φ₁) (Bl Br : FVec Ideal ⟨2, ![k, n]⟩ φ₂) (row : FVec Ideal ⟨2, ![1, n]⟩ .f32)
    (p : Fin m) (q : Fin n) :
    maximumf (addf (addf
          (FloatOps.matmul (⟨[1], [0], [0], [1], [], [], w⟩ : DotDims _ _ _) prec A Bl (constant ⟨2, ![m, n]⟩ .f32 0x00000000#32))
          (FloatOps.matmul (⟨[1], [0], [0], [1], [], [], w⟩ : DotDims _ _ _) prec X Br (constant ⟨2, ![m, n]⟩ .f32 0x00000000#32)))
        (broadcastTo ⟨2, ![m, n]⟩ row hb))
      (broadcast ⟨2, ![m, n]⟩ (Scalar.ofBits (F := Ideal) .f32 0x00000000#32)) (ix2 p q)
    = layerAt A X Bl Br (rowVec row) p q := by
  rw [maximumf_apply, addf_apply, addf_apply, matmul_rows_apply, matmul_rows_apply, broadcastTo_1b_ab_apply, broadcast_apply]
  show max _ (Ideal.ofBits .f32 0x00000000#32) = _
  rw [Ideal.ofBits_zero_f32]
  rfl

end Cert.Sage

end
-- ==== Proof.Region0.lean ====
/-
  Region 0 (the first layer's dense part) read as a whole array.

  The grid has 25 points; point t stages rows 2000·t … 2000·t + 1999 of the mean array and of the feature array, the two
  weight matrices and the bias row whole, and writes back rows 2000·t … 2000·t + 1999 of the result. What the body leaves in
  the result's block is the layer's entry over the staged blocks; since a row of a block is a row of its array and the
  contraction runs along a whole row, that entry is the layer's entry over the whole arrays. The 25 row blocks tile the
  50000 rows, so the result array ends holding the layer of the arrays the region found.
-/
import proofs.«180410_j2018634629676_1_alg».proof.Proof.Gen.KernelIdeal.Frame
import proofs.«180410_j2018634629676_1_alg».proof.Proof.Layer

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at `(p, q)` is the layer's entry over the staged blocks. -/
theorem pay_apply (x0 x1 : Vec Ideal S2000x128 .f32) (x2 x3 : Vec Ideal S128x256 .f32) (x4 : Vec Ideal S1x256 .f32)
    (p : Fin 2000) (q : Fin 256) :
    k0_pay1 (F := Ideal) x0 x1 x2 x3 x4 (ix2 p q) = Sage.layerAt x0 x1 x2 x3 (Sage.rowVec x4) p q := by
  unfold k0_pay1
  simp only [shapeCast_self]
  exact Sage.kernel_layer_apply dot_S2000x128_S128x256_S2000x256_1_0_0_1_n_n_wf none broadcasts_S1x256_S2000x256 _ _ _ _ _ p q

/-- The same at an entry of the array: when row `j 0` of the two row blocks is row `i 0` of the two arrays, the other
    operands are the arrays themselves and the columns agree, the body's value at `j` is the layer's entry at `i`. -/
theorem point_eq (x0 x1 : Vec Ideal S2000x128 .f32) (x2 x3 : Vec Ideal S128x256 .f32) (x4 : Vec Ideal S1x256 .f32)
    (A X : Vec Ideal S50000x128 .f32) (Wl Wr : Vec Ideal S128x256 .f32) (row : Vec Ideal S1x256 .f32)
    (j : S2000x256.Idx) (i : S50000x256.Idx)
    (h0 : ∀ l : Fin 128, x0 (ix2 (j 0) l) = A (ix2 (i 0) l))
    (h1 : ∀ l : Fin 128, x1 (ix2 (j 0) l) = X (ix2 (i 0) l))
    (h2 : x2 = Wl) (h3 : x3 = Wr) (h4 : x4 = row) (hi : (i 1 : Fin 256) = j 1) :
    k0_pay1 (F := Ideal) x0 x1 x2 x3 x4 j = Sage.layer A X Wl Wr (Sage.rowVec row) i := by
  subst h2 h3 h4
  refine ((congrArg (k0_pay1 (F := Ideal) x0 x1 x2 x3 x4) (eq_ix2 j)).trans (pay_apply x0 x1 x2 x3 x4 (j 0) (j 1))).trans ?_
  unfold Sage.layer Sage.layerAt
  rw [hi]
  simp only [h0, h1]

/-- The printed index maps, decided over the grid: the two row-blocked inputs and the output sit at block row t, column
    block 0; the weights and the bias row at block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the layer of the arrays the region found. -/
theorem flushed_eq (c : Dev nD) (t : Fin cfg0.N) :
    (dat0 V c).flushed 5 t = ((cfg0.win 5).blk t).view.read (Elt Ideal)
      (Sage.layer (V c main_v27) (V c main_arg0) (V c main_arg2) (V c main_arg3) (Sage.rowVec (V c main_v28))) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  funext j
  obtain ⟨e00, e01, e10, e11, e20, e21, e30, e31, e40, e41, e50, e51⟩ := idx_facts t
  show k0_pay1 (iblk0 V c 0 t) (iblk0 V c 1 t) (iblk0 V c 2 t) (iblk0 V c 3 t) (iblk0 V c 4 t) j
    = Sage.layer (V c main_v27) (V c main_arg0) (V c main_arg2) (V c main_arg3) (Sage.rowVec (V c main_v28))
        (((cfg0.win 5).blk t).view.emb j)
  refine point_eq (iblk0 V c 0 t) (iblk0 V c 1 t) (iblk0 V c 2 t) (iblk0 V c 3 t) (iblk0 V c 4 t)
    (V c main_v27) (V c main_arg0) (V c main_arg2) (V c main_arg3) (V c main_v28) j (((cfg0.win 5).blk t).view.emb j)
    ?_ ?_ ?_ ?_ ?_ ?_
  · intro l
    show V c main_v27 (((cfg0.win 0).blk t).view.emb (ix2 (j 0) l)) = _
    refine congrArg (V c main_v27) ?_
    funext a; apply Fin.ext
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 128 + 1 * l.val = l.val; omega
  · intro l
    show V c main_arg0 (((cfg0.win 1).blk t).view.emb (ix2 (j 0) l)) = _
    refine congrArg (V c main_arg0) ?_
    funext a; apply Fin.ext
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 128 + 1 * l.val = l.val; omega
  · funext y
    show V c main_arg2 (((cfg0.win 2).blk t).view.emb y) = _
    refine congrArg (V c main_arg2) ?_
    funext a; apply Fin.ext
    match a with
    | ⟨0, _⟩ => show win0_2.index t (0 : Fin 2) * 128 + 1 * (y 0).val = (y 0).val; omega
    | ⟨1, _⟩ => show win0_2.index t (1 : Fin 2) * 256 + 1 * (y 1).val = (y 1).val; omega
  · funext y
    show V c main_arg3 (((cfg0.win 3).blk t).view.emb y) = _
    refine congrArg (V c main_arg3) ?_
    funext a; apply Fin.ext
    match a with
    | ⟨0, _⟩ => show win0_3.index t (0 : Fin 2) * 128 + 1 * (y 0).val = (y 0).val; omega
    | ⟨1, _⟩ => show win0_3.index t (1 : Fin 2) * 256 + 1 * (y 1).val = (y 1).val; omega
  · funext y
    show V c main_v28 (((cfg0.win 4).blk t).view.emb y) = _
    refine congrArg (V c main_v28) ?_
    funext a; apply Fin.ext
    match a with
    | ⟨0, _⟩ => show win0_4.index t (0 : Fin 2) * 1 + 1 * (y 0).val = (y 0).val; omega
    | ⟨1, _⟩ => show win0_4.index t (1 : Fin 2) * 256 + 1 * (y 1).val = (y 1).val; omega
  · apply Fin.ext
    show win0_5.index t (1 : Fin 2) * 256 + 1 * (j 1).val = (j 1).val
    omega

/-- An index of the result array is in point `t`'s block iff each coordinate is in the block's range on its axis. -/
theorem mem_blk (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v29).slice (win0_5.rect t)).set ↔ _
  rw [View.set_slice_whole, Rect.mem_set_unit]
  exact Iff.rfl

/-- Every row of the result is in the block of the point its row block names. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨e00, e01, e10, e11, e20, e21, e30, e31, e40, e41, e50, e51⟩ := idx_facts t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- The result array after the region: the layer of the arrays the region found. -/
theorem final (c : Dev nD) : (dat0 V c).arrAt 5 cfg0.N
    = Sage.layer (V c main_v27) (V c main_arg0) (V c main_arg2) (V c main_arg3) (Sage.rowVec (V c main_v28)) :=
  (dat0 V c).arrAt_eq_of_cover 5 _ (fun t _ => flushed_eq V c t) cover

end Cert.KernelIdeal.Region0

end
-- ==== Proof.Region1.lean ====
/-
  Region 1 (the second layer's dense part) read as a whole array.

  The grid has 25 points; point t stages rows 2000·t … 2000·t + 1999 of the mean array and of the feature array, the two
  weight matrices and the bias row whole, and writes back rows 2000·t … 2000·t + 1999 of the result. What the body leaves in
  the result's block is the layer's entry over the staged blocks; since a row of a block is a row of its array and the
  contraction runs along a whole row, that entry is the layer's entry over the whole arrays. The 25 row blocks tile the
  50000 rows, so the result array ends holding the layer of the arrays the region found.
-/
import proofs.«180410_j2018634629676_1_alg».proof.Proof.Gen.KernelIdeal.Frame
import proofs.«180410_j2018634629676_1_alg».proof.Proof.Layer

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at `(p, q)` is the layer's entry over the staged blocks. -/
theorem pay_apply (x0 x1 : Vec Ideal S2000x256 .f32) (x2 x3 : Vec Ideal S256x256 .f32) (x4 : Vec Ideal S1x256 .f32)
    (p : Fin 2000) (q : Fin 256) :
    k1_pay1 (F := Ideal) x0 x1 x2 x3 x4 (ix2 p q) = Sage.layerAt x0 x1 x2 x3 (Sage.rowVec x4) p q := by
  unfold k1_pay1
  simp only [shapeCast_self]
  exact Sage.kernel_layer_apply dot_S2000x256_S256x256_S2000x256_1_0_0_1_n_n_wf none broadcasts_S1x256_S2000x256 _ _ _ _ _ p q

/-- The same at an entry of the array: when row `j 0` of the two row blocks is row `i 0` of the two arrays, the other
    operands are the arrays themselves and the columns agree, the body's value at `j` is the layer's entry at `i`. -/
theorem point_eq (x0 x1 : Vec Ideal S2000x256 .f32) (x2 x3 : Vec Ideal S256x256 .f32) (x4 : Vec Ideal S1x256 .f32)
    (A X : Vec Ideal S50000x256 .f32) (Wl Wr : Vec Ideal S256x256 .f32) (row : Vec Ideal S1x256 .f32)
    (j : S2000x256.Idx) (i : S50000x256.Idx)
    (h0 : ∀ l : Fin 256, x0 (ix2 (j 0) l) = A (ix2 (i 0) l))
    (h1 : ∀ l : Fin 256, x1 (ix2 (j 0) l) = X (ix2 (i 0) l))
    (h2 : x2 = Wl) (h3 : x3 = Wr) (h4 : x4 = row) (hi : (i 1 : Fin 256) = j 1) :
    k1_pay1 (F := Ideal) x0 x1 x2 x3 x4 j = Sage.layer A X Wl Wr (Sage.rowVec row) i := by
  subst h2 h3 h4
  refine ((congrArg (k1_pay1 (F := Ideal) x0 x1 x2 x3 x4) (eq_ix2 j)).trans (pay_apply x0 x1 x2 x3 x4 (j 0) (j 1))).trans ?_
  unfold Sage.layer Sage.layerAt
  rw [hi]
  simp only [h0, h1]

/-- The printed index maps, decided over the grid: the two row-blocked inputs and the output sit at block row t, column
    block 0; the weights and the bias row at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer of the arrays the region found. -/
theorem flushed_eq (c : Dev nD) (t : Fin cfg1.N) :
    (dat1 V c).flushed 5 t = ((cfg1.win 5).blk t).view.read (Elt Ideal)
      (Sage.layer (V c main_v42) (V c main_v29) (V c main_arg5) (V c main_arg6) (Sage.rowVec (V c main_v43))) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S1x256) hz]
  funext j
  obtain ⟨e00, e01, e10, e11, e20, e21, e30, e31, e40, e41, e50, e51⟩ := idx_facts t
  show k1_pay1 (iblk1 V c 0 t) (iblk1 V c 1 t) (iblk1 V c 2 t) (iblk1 V c 3 t) (iblk1 V c 4 t) j
    = Sage.layer (V c main_v42) (V c main_v29) (V c main_arg5) (V c main_arg6) (Sage.rowVec (V c main_v43))
        (((cfg1.win 5).blk t).view.emb j)
  refine point_eq (iblk1 V c 0 t) (iblk1 V c 1 t) (iblk1 V c 2 t) (iblk1 V c 3 t) (iblk1 V c 4 t)
    (V c main_v42) (V c main_v29) (V c main_arg5) (V c main_arg6) (V c main_v43) j (((cfg1.win 5).blk t).view.emb j)
    ?_ ?_ ?_ ?_ ?_ ?_
  · intro l
    show V c main_v42 (((cfg1.win 0).blk t).view.emb (ix2 (j 0) l)) = _
    refine congrArg (V c main_v42) ?_
    funext a; apply Fin.ext
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 256 + 1 * l.val = l.val; omega
  · intro l
    show V c main_v29 (((cfg1.win 1).blk t).view.emb (ix2 (j 0) l)) = _
    refine congrArg (V c main_v29) ?_
    funext a; apply Fin.ext
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 256 + 1 * l.val = l.val; omega
  · funext y
    show V c main_arg5 (((cfg1.win 2).blk t).view.emb y) = _
    refine congrArg (V c main_arg5) ?_
    funext a; apply Fin.ext
    match a with
    | ⟨0, _⟩ => show win1_2.index t (0 : Fin 2) * 256 + 1 * (y 0).val = (y 0).val; omega
    | ⟨1, _⟩ => show win1_2.index t (1 : Fin 2) * 256 + 1 * (y 1).val = (y 1).val; omega
  · funext y
    show V c main_arg6 (((cfg1.win 3).blk t).view.emb y) = _
    refine congrArg (V c main_arg6) ?_
    funext a; apply Fin.ext
    match a with
    | ⟨0, _⟩ => show win1_3.index t (0 : Fin 2) * 256 + 1 * (y 0).val = (y 0).val; omega
    | ⟨1, _⟩ => show win1_3.index t (1 : Fin 2) * 256 + 1 * (y 1).val = (y 1).val; omega
  · funext y
    show V c main_v43 (((cfg1.win 4).blk t).view.emb y) = _
    refine congrArg (V c main_v43) ?_
    funext a; apply Fin.ext
    match a with
    | ⟨0, _⟩ => show win1_4.index t (0 : Fin 2) * 1 + 1 * (y 0).val = (y 0).val; omega
    | ⟨1, _⟩ => show win1_4.index t (1 : Fin 2) * 256 + 1 * (y 1).val = (y 1).val; omega
  · apply Fin.ext
    show win1_5.index t (1 : Fin 2) * 256 + 1 * (j 1).val = (j 1).val
    omega

/-- An index of the result array is in point `t`'s block iff each coordinate is in the block's range on its axis. -/
theorem mem_blk (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v44).slice (win1_5.rect t)).set ↔ _
  rw [View.set_slice_whole, Rect.mem_set_unit]
  exact Iff.rfl

/-- Every row of the result is in the block of the point its row block names. -/
theorem cover (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  let t : Fin cfg1.N := ⟨(i 0).val / 2000, by rw [hN]; omega⟩
  obtain ⟨e00, e01, e10, e11, e20, e21, e30, e31, e40, e41, e50, e51⟩ := idx_facts t
  have ht : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- The result array after the region: the layer of the arrays the region found. -/
theorem final (c : Dev nD) : (dat1 V c).arrAt 5 cfg1.N
    = Sage.layer (V c main_v42) (V c main_v29) (V c main_arg5) (V c main_arg6) (Sage.rowVec (V c main_v43)) :=
  (dat1 V c).arrAt_eq_of_cover 5 _ (fun t _ => flushed_eq V c t) cover

end Cert.KernelIdeal.Region1

end
-- ==== Proof.Spec.lean ====
/-
  The whole network as one function of the arguments: two layers over the same graph.

  The hidden array is the first layer over the neighbour mean of the features and the features themselves; the result is
  the second layer over the neighbour mean of the hidden array and the hidden array itself.
-/
import proofs.«180410_j2018634629676_1_alg».proof.Proof.Chain
import proofs.«180410_j2018634629676_1_alg».proof.Proof.Layer

noncomputable section

namespace Cert.Sage

open Cert.KernelIdeal Cert.KernelIdeal.Chain Idealize.ShloMosaic

/-- The first layer's result. -/
def hidden (x : (⟨S50000x128, .f32⟩ : BufTy).Contents (Elt Ideal)) (e : (⟨S2x800000, .i32⟩ : BufTy).Contents (Elt Ideal))
    (W1l W1r : (⟨S128x256, .f32⟩ : BufTy).Contents (Elt Ideal)) (b1 : (⟨S256, .f32⟩ : BufTy).Contents (Elt Ideal)) :
    (⟨S50000x256, .f32⟩ : BufTy).Contents (Elt Ideal) :=
  layer (mean128 (F := Ideal) x e) x W1l W1r b1

/-- The network's result. -/
def out (x : (⟨S50000x128, .f32⟩ : BufTy).Contents (Elt Ideal)) (e : (⟨S2x800000, .i32⟩ : BufTy).Contents (Elt Ideal))
    (W1l W1r : (⟨S128x256, .f32⟩ : BufTy).Contents (Elt Ideal)) (b1 : (⟨S256, .f32⟩ : BufTy).Contents (Elt Ideal))
    (W2l W2r : (⟨S256x256, .f32⟩ : BufTy).Contents (Elt Ideal)) (b2 : (⟨S256, .f32⟩ : BufTy).Contents (Elt Ideal)) :
    (⟨S50000x256, .f32⟩ : BufTy).Contents (Elt Ideal) :=
  layer (mean256 (F := Ideal) (hidden x e W1l W1r b1) e) (hidden x e W1l W1r b1) W2l W2r b2

end Cert.Sage

end
-- ==== Proof.KernelValue.lean ====
/-
  The kernel program's result array as the network of the arguments.

  Region 0 leaves in its result array the first layer over what it found: the neighbour mean of the features, the features,
  the first weights and the first bias (held as one row, read back as the vector). The host stretch after it forms the
  neighbour mean of that array, and region 1 leaves the second layer over that mean, the hidden array, the second weights
  and the second bias. So the result array ends at the network of the arguments.
-/
import proofs.«180410_j2018634629676_1_alg».proof.Proof.HostReads
import proofs.«180410_j2018634629676_1_alg».proof.Proof.Region0
import proofs.«180410_j2018634629676_1_alg».proof.Proof.Region1
import proofs.«180410_j2018634629676_1_alg».proof.Proof.Spec

set_option maxRecDepth 16384

noncomputable section

namespace Cert.KernelIdeal.KernelValue

open Cert.KernelIdeal Cert.KernelIdeal.Gen Cert.KernelIdeal.Chain
open Idealize.ShloMosaic Idealize.ShloMosaic.TcCoe

variable (m : (ℓ : Loc nD τ sig) → Buf (Elt Ideal) ℓ) (ρ : Dev nD → PrngReg)

/-- Region 0 leaves the hidden array in its result array. -/
theorem hidden_eq (c : Dev nD) :
    W4 m ρ c (Proc.devRef .tc main_v29)
      = Sage.hidden (m ((c : Thread nD τ).loc main_arg0)) (m ((c : Thread nD τ).loc main_arg1)) (m ((c : Thread nD τ).loc main_arg2)) (m ((c : Thread nD τ).loc main_arg3)) (m ((c : Thread nD τ).loc main_arg4)) := by
  refine ((W4_arr m ρ c 5).trans (Region0.final (V3 m ρ) c)).trans ?_
  rw [V3_main_v27, V3_main_arg0, V3_main_arg2, V3_main_arg3, V3_main_v28, Sage.rowVec_cast]
  rfl

/-- Region 1 leaves the network's result in the result array. -/
theorem out_eq (c : Dev nD) :
    W6 m ρ c (Proc.devRef .tc main_v44)
      = Sage.out (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine ((W6_arr m ρ c 5).trans (Region1.final (V5 m ρ) c)).trans ?_
  rw [V5_main_v42, V5_main_v29, V5_main_arg5, V5_main_arg6, V5_main_v43, hidden_eq, Sage.rowVec_cast]
  rfl

end Cert.KernelIdeal.KernelValue

end
-- ==== Proof.RefSide.lean ====
/-
  The reference's result as the network of the arguments.

  The reference spells each layer with two whole-matrix products, the bias broadcast along the rows and a maximum against
  zero, over the neighbour mean it computes with the same host operations as the kernel's program. Each such spelling is
  the layer (read entry by entry, each product as the sum over the contracted coordinate), and the neighbour means are the
  same functions, so the reference's composed term is the network.
-/
import proofs.«180410_j2018634629676_1_alg».proof.Proof.RefRun
import proofs.«180410_j2018634629676_1_alg».proof.Proof.Spec

set_option maxRecDepth 16384

noncomputable section

namespace Cert.ReferenceIdeal.RefValue

open Cert.ReferenceIdeal Cert.ReferenceIdeal.Gen Cert.ReferenceIdeal.ValueP
open Idealize.ShloMosaic Idealize.ShloMosaic.TcCoe

/-- The reference's first layer, over any mean and feature arrays, is the layer. -/
theorem host_layer128 (mean x : FVec Ideal S50000x128 .f32) (Wl Wr : FVec Ideal S128x256 .f32) (b : FVec Ideal S256 .f32) :
    maximumf (addf (addf (Host.dotGeneral dot_S50000x128_S128x256_S50000x256_1_0_0_1_n_n none mean Wl)
          (Host.dotGeneral dot_S50000x128_S128x256_S50000x256_1_0_0_1_n_n none x Wr))
        (broadcastInDim S50000x256 ![0, 1] bcast_S1x256_S50000x256_0_1 (broadcastInDim S1x256 ![1] bcast_S256_S1x256_1 b)))
      (broadcastInDim S50000x256 ![] bcast_S_S50000x256 (constant (F := Ideal) S_ .f32 0x00000000#32))
    = Sage.layer mean x Wl Wr b :=
  Sage.host_layer dot_S50000x128_S128x256_S50000x256_1_0_0_1_n_n_wf none bcast_S_S50000x256 bcast_S256_S1x256_1
    bcast_S1x256_S50000x256_0_1 mean x Wl Wr b

/-- The reference's second layer, over any mean and feature arrays, is the layer. -/
theorem host_layer256 (mean x : FVec Ideal S50000x256 .f32) (Wl Wr : FVec Ideal S256x256 .f32) (b : FVec Ideal S256 .f32) :
    maximumf (addf (addf (Host.dotGeneral dot_S50000x256_S256x256_S50000x256_1_0_0_1_n_n none mean Wl)
          (Host.dotGeneral dot_S50000x256_S256x256_S50000x256_1_0_0_1_n_n none x Wr))
        (broadcastInDim S50000x256 ![0, 1] bcast_S1x256_S50000x256_0_1 (broadcastInDim S1x256 ![1] bcast_S256_S1x256_1 b)))
      (broadcastInDim S50000x256 ![] bcast_S_S50000x256 (constant (F := Ideal) S_ .f32 0x00000000#32))
    = Sage.layer mean x Wl Wr b :=
  Sage.host_layer dot_S50000x256_S256x256_S50000x256_1_0_0_1_n_n_wf none bcast_S_S50000x256 bcast_S256_S1x256_1
    bcast_S1x256_S50000x256_0_1 mean x Wl Wr b

/-- The reference run's result term is the network of the arguments. -/
theorem result_eq (m : (ℓ : Loc nD τ sig) → Buf (Elt Ideal) ℓ) (c : Dev nD) :
    res_main_v54 (F := Ideal) m c
      = Sage.out (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  unfold res_main_v54
  rw [host_layer128, host_layer256]
  rfl

end Cert.ReferenceIdeal.RefValue

end
-- ==== Proof.lean ====
/-
  A two-layer graph network (mean-aggregating SAGE layers with a rectifier) computed two ways.

  Both programs take node features x (50000 × 128), an edge list (sources and destinations of 800000 edges), and per layer
  two weight matrices and a bias. A layer forms, for every node, the mean of its in-neighbours' features (gather the source
  rows, add them up at the destinations, scale by the guarded inverse in-degree) and returns

      max( (mean · W_l + x · W_r) + b, 0 ).

  The reference computes each layer with whole-matrix host products. The kernel's program computes the neighbour means with
  the same host operations and the dense part of each layer in a kernel over 25 blocks of 2000 rows: per block two products
  into zero accumulators (their operands' change of float format is the identity at the ideal values), the bias row repeated
  down the rows, and the maximum against zero.

  Why the two agree on the extended reals, entry by entry: a row of a block is a row of its array and each product contracts
  a whole row, so an entry of a block's result is the same sum over the contracted coordinate that the host's product reads;
  the sums are grouped the same way on both sides ((mean·W_l + x·W_r) + b), so no algebraic law and no finiteness is used;
  the 25 row blocks tile the 50000 rows; and the neighbour means are the same functions of the same arrays. The second
  layer runs over the first layer's result on both sides.

  The frames: the kernel's programs by the generated frame of their two regions; the reference by its run. The idealization
  rewrote nothing, so `preserves` is trivial.
-/
import proofs.«180410_j2018634629676_1_alg».proof.Defs
import proofs.«180410_j2018634629676_1_alg».proof.Proof.Gen.Kernel
import proofs.«180410_j2018634629676_1_alg».proof.Proof.Gen.Kernel.Skeleton
import proofs.«180410_j2018634629676_1_alg».proof.Proof.Gen.Kernel.Launch
import proofs.«180410_j2018634629676_1_alg».proof.Proof.Gen.Kernel.Points
import proofs.«180410_j2018634629676_1_alg».proof.Proof.Gen.Kernel.Frame
import proofs.«180410_j2018634629676_1_alg».proof.Proof.Gen.KernelIdeal
import proofs.«180410_j2018634629676_1_alg».proof.Proof.Gen.KernelIdeal.Skeleton
import proofs.«180410_j2018634629676_1_alg».proof.Proof.Gen.KernelIdeal.Launch
import proofs.«180410_j2018634629676_1_alg».proof.Proof.Gen.KernelIdeal.Points
import proofs.«180410_j2018634629676_1_alg».proof.Proof.Gen.KernelIdeal.Frame
import proofs.«180410_j2018634629676_1_alg».proof.Proof.Gen.ReferenceIdeal
import proofs.«180410_j2018634629676_1_alg».proof.Proof.Gen.Pre_finite_inputs
import proofs.«180410_j2018634629676_1_alg».proof.Proof.KernelRun
import proofs.«180410_j2018634629676_1_alg».proof.Proof.KernelValue
import proofs.«180410_j2018634629676_1_alg».proof.Proof.RefRun
import proofs.«180410_j2018634629676_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result array at the network of the arguments; the arguments agree. -/
theorem algebraic : Cert.algebraic_KernelIdeal_ReferenceIdeal := by
  intro m ρ m' ρ' _ hagree
  refine ⟨fun c => Cert.Sage.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KernelValue.out_eq m ρ c), (h c).2⟩)
      (Cert.KernelIdeal.GenRun.run_named (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
